-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S128x128 : Shape := ⟨2, ![128, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16x2048x128 .f32) (main_arg1 : FVec F S128x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S16x2048x128 : Shape := ⟨3, ![16, 2048, 128]⟩
abbrev S128x128 : Shape := ⟨2, ![128, 128]⟩
abbrev S32768x128 : Shape := ⟨2, ![32768, 128]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S32768x128, .f32⟩
  | .hbm, ⟨3, _⟩ => ⟨S32768x128, .f32⟩
  | .hbm, ⟨4, _⟩ => ⟨S16x2048x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x2048x128_S32768x128 : S16x2048x128.ShapeCasts S32768x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S32768x128_S16x2048x128 : S32768x128.ShapeCasts S16x2048x128
  dot_S2048x128_S128x128_S2048x128_1_1_0_0_n_n_wf : DotDims.WF S2048x128 S128x128 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S128x128 : Shape := ⟨2, ![128, 128]⟩
abbrev S1x2048x128 : Shape := ⟨3, ![1, 2048, 128]⟩
abbrev S2048x128 : Shape := ⟨2, ![2048, 128]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S1x2048x128, .f32⟩
  | .hbm, ⟨3, _⟩ => ⟨S2048x128, .f32⟩
  | .hbm, ⟨4, _⟩ => ⟨S2048x128, .f32⟩
  | .hbm, ⟨5, _⟩ => ⟨S1x2048x128, .f32⟩
  | .hbm, ⟨6, _⟩ => ⟨S2048x128, .f32⟩
  | .hbm, ⟨7, _⟩ => ⟨S2048x128, .f32⟩
  | .hbm, ⟨8, _⟩ => ⟨S1x2048x128, .f32⟩
  | .hbm, ⟨9, _⟩ => ⟨S2048x128, .f32⟩
  | .hbm, ⟨10, _⟩ => ⟨S2048x128, .f32⟩
  | .hbm, ⟨11, _⟩ => ⟨S1x2048x128, .f32⟩
  | .hbm, ⟨12, _⟩ => ⟨S2048x128, .f32⟩
  | .hbm, ⟨13, _⟩ => ⟨S2048x128, .f32⟩
  | .hbm, ⟨14, _⟩ => ⟨S1x2048x128, .f32⟩
  | .hbm, ⟨15, _⟩ => ⟨S2048x128, .f32⟩
  | .hbm, ⟨16, _⟩ => ⟨S2048x128, .f32⟩
  | .hbm, ⟨17, _⟩ => ⟨S1x2048x128, .f32⟩
  | .hbm, ⟨18, _⟩ => ⟨S2048x128, .f32⟩
  | .hbm, ⟨19, _⟩ => ⟨S2048x128, .f32⟩
  | .hbm, ⟨20, _⟩ => ⟨S1x2048x128, .f32⟩
  | .hbm, ⟨21, _⟩ => ⟨S2048x128, .f32⟩
  | .hbm, ⟨22, _⟩ => ⟨S2048x128, .f32⟩
  | .hbm, ⟨23, _⟩ => ⟨S1x2048x128, .f32⟩
  | .hbm, ⟨24, _⟩ => ⟨S2048x128, .f32⟩
  | .hbm, ⟨25, _⟩ => ⟨S2048x128, .f32⟩
  | .hbm, ⟨26, _⟩ => ⟨S1x2048x128, .f32⟩
  | .hbm, ⟨27, _⟩ => ⟨S2048x128, .f32⟩
  | .hbm, ⟨28, _⟩ => ⟨S2048x128, .f32⟩
  | .hbm, ⟨29, _⟩ => ⟨S1x2048x128, .f32⟩
  | .hbm, ⟨30, _⟩ => ⟨S2048x128, .f32⟩
  | .hbm, ⟨31, _⟩ => ⟨S2048x128, .f32⟩
  | .hbm, ⟨32, _⟩ => ⟨S1x2048x128, .f32⟩
  | .hbm, ⟨33, _⟩ => ⟨S2048x128, .f32⟩
  | .hbm, ⟨34, _⟩ => ⟨S2048x128, .f32⟩
  | .hbm, ⟨35, _⟩ => ⟨S1x2048x128, .f32⟩
  | .hbm, ⟨36, _⟩ => ⟨S2048x128, .f32⟩
  | .hbm, ⟨37, _⟩ => ⟨S2048x128, .f32⟩
  | .hbm, ⟨38, _⟩ => ⟨S1x2048x128, .f32⟩
  | .hbm, ⟨39, _⟩ => ⟨S2048x128, .f32⟩
  | .hbm, ⟨40, _⟩ => ⟨S2048x128, .f32⟩
  | .hbm, ⟨41, _⟩ => ⟨S1x2048x128, .f32⟩
  | .hbm, ⟨42, _⟩ => ⟨S2048x128, .f32⟩
  | .hbm, ⟨43, _⟩ => ⟨S2048x128, .f32⟩
  | .hbm, ⟨44, _⟩ => ⟨S1x2048x128, .f32⟩
  | .hbm, ⟨45, _⟩ => ⟨S2048x128, .f32⟩
  | .hbm, ⟨46, _⟩ => ⟨S2048x128, .f32⟩
  | .hbm, ⟨47, _⟩ => ⟨S1x2048x128, .f32⟩
  | .hbm, ⟨48, _⟩ => ⟨S2048x128, .f32⟩
  | .hbm, ⟨49, _⟩ => ⟨S2048x128, .f32⟩
  | .hbm, ⟨50, _⟩ => ⟨S1x2048x128, .f32⟩
  | .hbm, ⟨51, _⟩ => ⟨S1x2048x128, .f32⟩
  | .hbm, ⟨52, _⟩ => ⟨S1x2048x128, .f32⟩
  | .hbm, ⟨53, _⟩ => ⟨S1x2048x128, .f32⟩
  | .hbm, ⟨54, _⟩ => ⟨S1x2048x128, .f32⟩
  | .hbm, ⟨55, _⟩ => ⟨S1x2048x128, .f32⟩
  | .hbm, ⟨56, _⟩ => ⟨S1x2048x128, .f32⟩
  | .hbm, ⟨57, _⟩ => ⟨S1x2048x128, .f32⟩
  | .hbm, ⟨58, _⟩ => ⟨S1x2048x128, .f32⟩
  | .hbm, ⟨59, _⟩ => ⟨S1x2048x128, .f32⟩
  | .hbm, ⟨60, _⟩ => ⟨S1x2048x128, .f32⟩
  | .hbm, ⟨61, _⟩ => ⟨S1x2048x128, .f32⟩
  | .hbm, ⟨62, _⟩ => ⟨S1x2048x128, .f32⟩
  | .hbm, ⟨63, _⟩ => ⟨S1x2048x128, .f32⟩
  | .hbm, ⟨64, _⟩ => ⟨S1x2048x128, .f32⟩
  | .hbm, ⟨65, _⟩ => ⟨S1x2048x128, .f32⟩
  | .hbm, ⟨66, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩

abbrev nD : Nat := 1
abbrev τ : Topo := Topo.v7x

variable {F : FTy → Type} [FloatOps F]

class Facts₀ : Prop where
  slices_S16x2048x128_S1x2048x128_0_0_0 : S16x2048x128.Slices ![0, 0, 0] S1x2048x128
  shapeCasts_S1x2048x128_S2048x128 : S1x2048x128.ShapeCasts S2048x128
  slices_S16x2048x128_S1x2048x128_1_0_0 : S16x2048x128.Slices ![1, 0, 0] S1x2048x128
  slices_S16x2048x128_S1x2048x128_2_0_0 : S16x2048x128.Slices ![2, 0, 0] S1x2048x128
  slices_S16x2048x128_S1x2048x128_3_0_0 : S16x2048x128.Slices ![3, 0, 0] S1x2048x128
  slices_S16x2048x128_S1x2048x128_4_0_0 : S16x2048x128.Slices ![4, 0, 0] S1x2048x128
  slices_S16x2048x128_S1x2048x128_5_0_0 : S16x2048x128.Slices ![5, 0, 0] S1x2048x128
  slices_S16x2048x128_S1x2048x128_6_0_0 : S16x2048x128.Slices ![6, 0, 0] S1x2048x128
  slices_S16x2048x128_S1x2048x128_7_0_0 : S16x2048x128.Slices ![7, 0, 0] S1x2048x128
  slices_S16x2048x128_S1x2048x128_8_0_0 : S16x2048x128.Slices ![8, 0, 0] S1x2048x128
  slices_S16x2048x128_S1x2048x128_9_0_0 : S16x2048x128.Slices ![9, 0, 0] S1x2048x128
  slices_S16x2048x128_S1x2048x128_10_0_0 : S16x2048x128.Slices ![10, 0, 0] S1x2048x128
  slices_S16x2048x128_S1x2048x128_11_0_0 : S16x2048x128.Slices ![11, 0, 0] S1x2048x128
  slices_S16x2048x128_S1x2048x128_12_0_0 : S16x2048x128.Slices ![12, 0, 0] S1x2048x128
  slices_S16x2048x128_S1x2048x128_13_0_0 : S16x2048x128.Slices ![13, 0, 0] S1x2048x128
  slices_S16x2048x128_S1x2048x128_14_0_0 : S16x2048x128.Slices ![14, 0, 0] S1x2048x128
  slices_S16x2048x128_S1x2048x128_15_0_0 : S16x2048x128.Slices ![15, 0, 0] S1x2048x128
  bcast_S2048x128_S1x2048x128_1_2 : S2048x128.BroadcastsInDim S1x2048x128 (![1, 2] : Fin 2 → Fin S1x2048x128.rank)
  concatenates_S1x2048x128_S1x2048x128_S1x2048x128_S1x2048x128_S1x2048x128_S1x2048x128_S1x2048x128_S1x2048x128_S1x2048x128_S1x2048x128_S1x2048x128_S1x2048x128_S1x2048x128_S1x2048x128_S1x2048x128_S1x2048x128_S16x2048x128_d0 : Shape.Concatenates [S1x2048x128, S1x2048x128, S1x2048x128, S1x2048x128, S1x2048x128, S1x2048x128, S1x2048x128, S1x2048x128, S1x2048x128, S1x2048x128, S1x2048x128, S1x2048x128, S1x2048x128, S1x2048x128, S1x2048x128, S1x2048x128] S16x2048x128 0
  dot_S2048x128_S128x128_S2048x128_1_1_0_0_n_n_wf : DotDims.WF S2048x128 S128x128 S2048x128 [1] [1] [0] [0] [] []

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

class Facts : Prop extends Facts₀ where

variable [Facts]
-- ==== Proof.RowMap.lean ====
/-
  The mathematics that both programs compute, stated once and free of either program.

  The input `x` is a stack of 16 matrices, each of 2048 rows and 128 columns, and `w` is a 128 × 128 matrix.
  The result applies the linear map `v ↦ w · v` to every row of every matrix of the stack: its entry at
  `(b, s, o)` is the inner product of row `(b, s)` of `x` with row `o` of `w`,
        `∑ q, x (b, s, q) * w (o, q)`.
  Over the extended reals this is a finite sum of products, and it does not matter whether the 16 matrices are
  treated one at a time or laid end to end as one matrix of 16 · 2048 = 32768 rows: the row `(b, s)` of the stack
  is the row `b · 2048 + s` of the long matrix, with the same 128 entries. This file states the stacked form
  (`rowsByWt`), the long form (`flatByWt`), the passage between them through the two reshapes, and the reading
  of a contraction "last axis against last axis" of a 2048 × 128 block with `w` as that inner product.
-/
import Idealize.ShloMosaic.PureOps.Ideal.Laws
import Idealize.ShloMosaic.Lib.ValueIdx
import Idealize.ShloMosaic.Lib.Pipeline.Value

noncomputable section

namespace Cert.RowMap

open Idealize.ShloMosaic Idealize.ShloMosaic.ValueIdx
open scoped BigOperators

/-- The stack of 16 matrices. -/
abbrev Stack : Shape := ⟨3, ![16, 2048, 128]⟩
/-- The same entries as one long matrix of 32768 rows. -/
abbrev Flat : Shape := ⟨2, ![32768, 128]⟩
/-- One block of 2048 rows. -/
abbrev Rows : Shape := ⟨2, ![2048, 128]⟩
/-- The weight matrix. -/
abbrev Wt : Shape := ⟨2, ![128, 128]⟩

/-- Entry `(b, s, o)` of the result: row `(b, s)` of `x` against row `o` of `w`. -/
def rowsByWt (x : Stack.Idx → EReal) (w : Wt.Idx → EReal) : Stack.Idx → EReal :=
  fun j => ∑ q : Fin 128, x (ix3 (j 0) (j 1) q) * w (ix2 (j 2) q)

/-- The same for the long matrix: entry `(r, o)` is row `r` against row `o` of `w`. -/
def flatByWt (X : Flat.Idx → EReal) (w : Wt.Idx → EReal) : Flat.Idx → EReal :=
  fun i => ∑ q : Fin 128, X (ix2 (i 0) q) * w (ix2 (i 1) q)

/-! ## The contraction of a block of rows with the weight, last axis against last axis -/

/-- The dimension numbers "contract axis 1 of the left with axis 1 of the right; the free axes are the rows of the
    left and the rows of the right". -/
abbrev rowDot : DotDims Rows Wt Rows := DotDims.transposedRhs 2048 128 128

theorem lhs_axis0 (i : Rows.Idx) (k : rowDot.contr.Idx) : (rowDot.lhsIdx i k 0).val = (i 0).val := by
  unfold DotDims.lhsIdx
  rw [dif_neg (show ¬(0 : Fin Rows.rank) ∈ rowDot.lhsBatch by decide),
    dif_pos (show (0 : Fin Rows.rank) ∈ rowDot.lhsNonContracting by decide)]
  rfl
theorem lhs_axis1 (i : Rows.Idx) (k : rowDot.contr.Idx) : (rowDot.lhsIdx i k 1).val = (k ⟨0, by decide⟩).val :=
  rowDot.lhsIdx_val_of_single rfl i k
theorem rhs_axis0 (i : Rows.Idx) (k : rowDot.contr.Idx) : (rowDot.rhsIdx i k 0).val = (i 1).val := by
  unfold DotDims.rhsIdx
  rw [dif_neg (show ¬(0 : Fin Wt.rank) ∈ rowDot.rhsBatch by decide),
    dif_pos (show (0 : Fin Wt.rank) ∈ rowDot.rhsNonContracting by decide)]
  rfl
theorem rhs_axis1 (i : Rows.Idx) (k : rowDot.contr.Idx) : (rowDot.rhsIdx i k 1).val = (k ⟨0, by decide⟩).val :=
  rowDot.rhsIdx_val_of_single rfl i k

/-- The contraction's sum, over its own index type, is the inner product of row `i 0` of the block with row
    `i 1` of the weight: the contraction index is one coordinate `q < 128`, the left operand is read at
    `(i 0, q)` and the right at `(i 1, q)`. -/
theorem contr_sum (y : Rows.Idx → EReal) (w : Wt.Idx → EReal) (i : Rows.Idx) :
    ∑ k : rowDot.contr.Idx, y (rowDot.lhsIdx i k) * w (rowDot.rhsIdx i k)
      = ∑ q : Fin 128, y (ix2 (i 0) q) * w (ix2 (i 1) q) := by
  rw [← Equiv.sum_comp (contrEquiv1 rowDot 128 rfl rfl).symm]
  refine Finset.sum_congr rfl fun q _ => ?_
  have hq := contrEquiv1_symm_val rowDot 128 rfl rfl q
  have el : rowDot.lhsIdx i ((contrEquiv1 rowDot 128 rfl rfl).symm q) = ix2 (i 0) q := funext fun a => Fin.ext (by
    match a with
    | ⟨0, _⟩ => exact lhs_axis0 _ _
    | ⟨1, _⟩ => exact (lhs_axis1 _ _).trans hq)
  have er : rowDot.rhsIdx i ((contrEquiv1 rowDot 128 rfl rfl).symm q) = ix2 (i 1) q := funext fun a => Fin.ext (by
    match a with
    | ⟨0, _⟩ => exact rhs_axis0 _ _
    | ⟨1, _⟩ => exact (rhs_axis1 _ _).trans hq)
  rw [el, er]
  rfl

/-- The host's contraction of a block with the weight, read at an entry. -/
theorem dotGeneral_rows (D : DotDims Rows Wt Rows) (hD : D = rowDot) (prec : Option ContractPrecision) (sched : HostSchedule)
    (y : FVec Ideal Rows .f32) (w : FVec Ideal Wt .f32) (i : Rows.Idx) :
    FloatOps.dotGeneral D prec sched y w i = ∑ q : Fin 128, y (ix2 (i 0) q) * w (ix2 (i 1) q) := by
  subst hD
  rw [Ideal.dotGeneral_apply]
  exact contr_sum y w i

/-- The matrix unit's contraction of a block with the weight into a zero accumulator, read at an entry. -/
theorem matmul_rows (D : DotDims Rows Wt Rows) (hD : D = rowDot) (prec : Option ContractPrecision)
    (y : FVec Ideal Rows .f32) (w : FVec Ideal Wt .f32) (i : Rows.Idx) :
    FloatOps.matmul D prec y w (constant Rows .f32 0x00000000#32) i = ∑ q : Fin 128, y (ix2 (i 0) q) * w (ix2 (i 1) q) := by
  subst hD
  rw [Ideal.matmul_constant_zero_apply]
  exact contr_sum y w i

/-! ## The stack and the long matrix -/

/-- The long matrix read at `(r, q)` is the stack read at `(r / 2048, r % 2048, q)`. -/
theorem flat_apply (x : Stack.Idx → EReal) (h : Stack.ShapeCasts Flat) (r : Fin 32768) (q : Fin 128) :
    shapeCast Flat x h (ix2 r q) = x (ix3 (⟨r.val / 2048, by have := r.isLt; omega⟩ : Fin 16) (⟨r.val % 2048, by omega⟩ : Fin 2048) q) := by
  refine shapeCast_apply x h _ _ ?_
  rw [Shape.rowMajor_val_three, Shape.rowMajor_val_two]
  show (r.val / 2048 * 2048 + r.val % 2048) * 128 + q.val = r.val * 128 + q.val
  omega

/-- The stack rebuilt from a long matrix, read at `(b, s, o)`, is the long matrix read at `(b · 2048 + s, o)`. -/
theorem stack_apply (Y : Flat.Idx → EReal) (h : Flat.ShapeCasts Stack) (b : Fin 16) (s : Fin 2048) (o : Fin 128) :
    shapeCast Stack Y h (ix3 b s o) = Y (ix2 (⟨b.val * 2048 + s.val, by have := b.isLt; have := s.isLt; omega⟩ : Fin 32768) o) := by
  refine shapeCast_apply Y h _ _ ?_
  rw [Shape.rowMajor_val_three, Shape.rowMajor_val_two]
  show (b.val * 2048 + s.val) * 128 + o.val = (b.val * 2048 + s.val) * 128 + o.val
  rfl

/-- Laying the stack end to end, applying the map to every row of the long matrix, and cutting the result back
    into a stack is applying the map to every row of the stack. -/
theorem stack_flatByWt (x : Stack.Idx → EReal) (w : Wt.Idx → EReal) (h : Stack.ShapeCasts Flat) (h' : Flat.ShapeCasts Stack) :
    shapeCast Stack (flatByWt (shapeCast Flat x h) w) h' = rowsByWt x w := by
  funext j
  obtain ⟨b, s, o, rfl⟩ : ∃ (b : Fin 16) (s : Fin 2048) (o : Fin 128), j = ix3 b s o := ⟨j 0, j 1, j 2, eq_ix3 j⟩
  rw [stack_apply]
  unfold flatByWt rowsByWt
  refine Finset.sum_congr rfl fun q _ => ?_
  show shapeCast Flat x h (ix2 (⟨b.val * 2048 + s.val, _⟩ : Fin 32768) q) * _ = _
  rw [flat_apply]
  have hb : (⟨(b.val * 2048 + s.val) / 2048, by have := b.isLt; have := s.isLt; omega⟩ : Fin 16) = b :=
    Fin.ext (by show (b.val * 2048 + s.val) / 2048 = b.val; have := s.isLt; omega)
  have hs : (⟨(b.val * 2048 + s.val) % 2048, by omega⟩ : Fin 2048) = s :=
    Fin.ext (by show (b.val * 2048 + s.val) % 2048 = s.val; have := s.isLt; omega)
  rw [hb, hs]

end Cert.RowMap

end
-- ==== Proof.RefRows.lean ====
/-
  The reference program computes `RowMap.rowsByWt`.

  The reference treats the stack one matrix at a time. For each `n < 16` it cuts the slab `[n, n+1) × 2048 × 128`
  out of `x`, drops the slab's unit axis, contracts the resulting 2048 × 128 matrix with `w` (last axis against
  last axis), and puts the unit axis back; the sixteen results are then joined along the first axis. Read at
  `(b, s, o)`, the joined array is slab `b`'s result at `(0, s, o)`, which is the contraction of row `s` of
  matrix `b` with row `o` of `w`: the sum `∑ q, x (b, s, q) * w (o, q)`.
  The sixteen slabs are one function of the slab's number, so they are treated here as a family indexed by `n`,
  not one by one.
-/
import proofs.«117499_g16398185136913_cont_week2b_1412_2_alg».proof.Proof.Gen.ReferenceIdeal.Read
import proofs.«117499_g16398185136913_cont_week2b_1412_2_alg».proof.Proof.RowMap

noncomputable section

namespace Cert.RefRows

open Cert.ReferenceIdeal Cert.ReferenceIdeal.Gen Idealize.ShloMosaic Idealize.ShloMosaic.ValueIdx Cert.RowMap
open scoped BigOperators

/-- Slab `n` lies inside the stack. -/
theorem slab_slices (n : Fin 16) : S16x2048x128.Slices ![n.val, 0, 0] S1x2048x128 :=
  ⟨rfl, fun a => match a with
    | ⟨0, _⟩ => by show n.val + 1 ≤ 16; have := n.isLt; omega
    | ⟨1, _⟩ => by show 0 + 2048 ≤ 2048; omega
    | ⟨2, _⟩ => by show 0 + 128 ≤ 128; omega⟩

/-- Matrix `n` of the stack, as a slab with a unit leading axis. -/
def slab (n : Fin 16) (x : (⟨S16x2048x128, .f32⟩ : BufTy).Contents (Elt Ideal)) : (⟨S1x2048x128, .f32⟩ : BufTy).Contents (Elt Ideal) :=
  extractStridedSlice S1x2048x128 ![n.val, 0, 0] x (slab_slices n)

/-- The same without the unit axis: a matrix of 2048 rows. -/
def slabRows (n : Fin 16) (x : (⟨S16x2048x128, .f32⟩ : BufTy).Contents (Elt Ideal)) : (⟨S2048x128, .f32⟩ : BufTy).Contents (Elt Ideal) :=
  shapeCast _ (slab n x) shapeCasts_S1x2048x128_S2048x128

/-- Its rows contracted with the rows of `w`. -/
def slabDot (n : Fin 16) (x : (⟨S16x2048x128, .f32⟩ : BufTy).Contents (Elt Ideal)) (w : (⟨S128x128, .f32⟩ : BufTy).Contents (Elt Ideal)) : (⟨S2048x128, .f32⟩ : BufTy).Contents (Elt Ideal) :=
  Host.dotGeneral (F := Ideal) (φ₁ := .f32) (φ₂ := .f32) dot_S2048x128_S128x128_S2048x128_1_1_0_0_n_n none (slabRows n x) w

/-- What the reference makes of matrix `n` of the stack: cut the slab, drop its unit axis, contract with `w`, put
    the unit axis back. -/
def slabOut (n : Fin 16) (x : (⟨S16x2048x128, .f32⟩ : BufTy).Contents (Elt Ideal)) (w : (⟨S128x128, .f32⟩ : BufTy).Contents (Elt Ideal)) : (⟨S1x2048x128, .f32⟩ : BufTy).Contents (Elt Ideal) :=
  broadcastInDim S1x2048x128 ![1, 2] bcast_S2048x128_S1x2048x128_1_2 (slabDot n x w)

/-- Slab `n`'s result at `(0, s, o)` is row `(n, s)` of `x` against row `o` of `w`. -/
theorem slabOut_apply (n : Fin 16) (x : (⟨S16x2048x128, .f32⟩ : BufTy).Contents (Elt Ideal)) (w : (⟨S128x128, .f32⟩ : BufTy).Contents (Elt Ideal))
    (z : Fin 1) (s : Fin 2048) (o : Fin 128) :
    slabOut n x w (ix3 z s o) = ∑ q : Fin 128, x (ix3 n s q) * w (ix2 o q) := by
  unfold slabOut
  refine (broadcastInDim_apply _ bcast_S2048x128_S1x2048x128_1_2 (slabDot n x w) (ix3 z s o) (ix2 s o) (fun a => match a with
    | ⟨0, _⟩ => by show s.val = if (2048 : Nat) = 1 then 0 else s.val; rw [if_neg (by decide)]
    | ⟨1, _⟩ => by show o.val = if (128 : Nat) = 1 then 0 else o.val; rw [if_neg (by decide)])).trans ?_
  unfold slabDot
  simp only [Host.dotGeneral]
  refine (dotGeneral_rows _ rfl _ _ (slabRows n x) w (ix2 s o)).trans ?_
  refine Finset.sum_congr rfl fun q _ => ?_
  refine congrArg (· * w (ix2 o q)) ?_
  show slabRows n x (ix2 s q) = x (ix3 n s q)
  unfold slabRows
  refine (shapeCast_apply (slab n x) shapeCasts_S1x2048x128_S2048x128 (ix2 s q) (ix3 (0 : Fin 1) s q) (by
    rw [Shape.rowMajor_val_three, Shape.rowMajor_val_two]
    show (0 * 2048 + s.val) * 128 + q.val = s.val * 128 + q.val
    omega)).trans ?_
  unfold slab
  exact extractStridedSlice_apply ![n.val, 0, 0] x (slab_slices n) (ix3 (0 : Fin 1) s q) (ix3 n s q) (fun a => match a with
    | ⟨0, _⟩ => by show n.val = n.val + 0; omega
    | ⟨1, _⟩ => by show s.val = 0 + s.val; omega
    | ⟨2, _⟩ => by show q.val = 0 + q.val; omega)

/-- The reference's last value, the join of its sixteen pieces, is the join of the family `slabOut`: piece `n` of
    the printed list is `slabOut n` spelt out with the numeral `n`. -/
theorem ref_eq_family (x : (⟨S16x2048x128, .f32⟩ : BufTy).Contents (Elt Ideal)) (w : (⟨S128x128, .f32⟩ : BufTy).Contents (Elt Ideal)) :
    Cert.ReferenceIdeal.Read.val_main_v64 (F := Ideal) x w
      = concatenate S16x2048x128 0 (List.ofFn fun n : Fin 16 => (⟨S1x2048x128, slabOut n x w⟩ : (s : Shape) × (s.Idx → Elt Ideal .f32)))
          concatenates_S1x2048x128_S1x2048x128_S1x2048x128_S1x2048x128_S1x2048x128_S1x2048x128_S1x2048x128_S1x2048x128_S1x2048x128_S1x2048x128_S1x2048x128_S1x2048x128_S1x2048x128_S1x2048x128_S1x2048x128_S1x2048x128_S16x2048x128_d0 := rfl

/-- The reference's result, entry by entry, is the map `v ↦ w · v` applied to every row of the stack. -/
theorem ref_rows (x : (⟨S16x2048x128, .f32⟩ : BufTy).Contents (Elt Ideal)) (w : (⟨S128x128, .f32⟩ : BufTy).Contents (Elt Ideal)) :
    Cert.ReferenceIdeal.Read.val_main_v64 (F := Ideal) x w = rowsByWt x w := by
  funext j
  obtain ⟨b, s, o, rfl⟩ : ∃ (b : Fin 16) (s : Fin 2048) (o : Fin 128), j = ix3 b s o := ⟨j 0, j 1, j 2, eq_ix3 j⟩
  rw [ref_eq_family]
  refine (concatenate_ofFn_unit_apply (0 : Fin S16x2048x128.rank) (fun n : Fin 16 => slabOut n x w) _ rfl rfl (ix3 b s o) b rfl
    (ix3 (0 : Fin 1) s o) ?_).trans ?_
  · intro a ha
    match a with
    | ⟨0, _⟩ => exact absurd rfl ha
    | ⟨1, _⟩ => rfl
    | ⟨2, _⟩ => rfl
  · exact slabOut_apply b x w 0 s o

end Cert.RefRows

end
-- ==== Proof.KernelRows.lean ====
/-
  The kernel computes `RowMap.rowsByWt`.

  The kernel lays the stack end to end as one matrix of 32768 rows, and walks it in 16 blocks of 2048 rows. At
  block `t` it reads rows `[2048 t, 2048 (t + 1))` and the whole of `w`, contracts the block with `w` (last
  axis against last axis, into a zero accumulator) and writes the 2048 × 128 result to the same rows of the
  output. So row `r` of the output, wherever it falls, is `∑ q, X (r, q) * w (o, q)` with `X` the long matrix:
  each block is a restriction of the one function `RowMap.flatByWt X w`, and the 16 blocks tile the output.
  The last step cuts the long result back into a stack, and `RowMap.stack_flatByWt` identifies it.
-/
import proofs.«117499_g16398185136913_cont_week2b_1412_2_alg».proof.Proof.Gen.KernelIdeal.Frame
import proofs.«117499_g16398185136913_cont_week2b_1412_2_alg».proof.Proof.RowMap
import Idealize.ShloMosaic.Lib.Pipeline.Value
import Idealize.ShloMosaic.Lib.StableHlo.Run

set_option maxRecDepth 16384

noncomputable section

namespace Cert.KernelRows

open Cert.KernelIdeal Cert.KernelIdeal.Gen Idealize.ShloMosaic Idealize.ShloMosaic.TcCoe Idealize.SL.Sem
open Idealize.ShloMosaic.ValueIdx Cert.RowMap
open Idealize.ShloMosaic.Pipeline (Dat Cfg Window)
open scoped BigOperators

variable (m : (ℓ : Loc nD τ sig) → Buf (Elt Ideal) ℓ) (ρ : Dev nD → PrngReg)

/-! ## What the region finds -/

/-- The long matrix of 32768 rows, as the region finds it. -/
abbrev longX (c : Dev nD) : S32768x128.Idx → EReal := V m c main_v0
/-- The weight, as the region finds it. -/
abbrev wt (c : Dev nD) : S128x128.Idx → EReal := V m c main_arg1

/-- The long matrix the region reads is the stack laid end to end. -/
theorem long_eq (c : Dev nD) :
    longX m c
      = shapeCast S32768x128 (m ((c : Thread nD τ).loc main_arg0)) shapeCasts_S16x2048x128_S32768x128 := by
  show StableHlo.after hostOps0 (fun b => m (c, b)) (Proc.devRef .tc main_v0) = _
  after_results
  rfl

/-! ## One block -/

/-- The body's value at entry `(r, o)` of its block: row `r` of the block of `x` against row `o` of `w`. -/
theorem body_apply (v0 : Vec Ideal S2048x128 .f32) (v2 : Vec Ideal S128x128 .f32) (r : Fin 2048) (o : Fin 128) :
    k0_pay1 v0 v2 (ix2 r o) = ∑ q : Fin 128, v0 (ix2 r q) * v2 (ix2 o q) := by
  unfold k0_pay1
  rw [shapeCast_self]
  exact matmul_rows _ rfl _ _ _ (ix2 r o)

theorem hz : (![0, 0] : Fin 2 → Nat) = fun _ => 0 := funext fun a => by fin_cases a <;> rfl

/-- Where the three windows sit at point `t`: the block of rows read and the block of rows written are the same,
    number `t`; every window starts at column 0; the weight is read whole. -/
theorem where_blocks : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the one function `flatByWt` of the long matrix and the weight. -/
theorem flushed_eq (c : Dev nD) (t : Fin cfg0.N) :
    (dats m 0 c).flushed 2 t
      = ((cfg0.win 2).blk t).view.read (Elt Ideal) (flatByWt (longX m c) (wt m c)) := by
  show (cfg0.win 2).cut (grid0.coords t) ((dats m 0 c).after 2 t) = _
  rw [after0_2]
  unfold out0_2
  rw [View.canon_unit_zero hz]
  simp only [View.ld_unit_zero (S := S2048x128) hz, View.ld_unit_zero (S := S128x128) hz]
  obtain ⟨e0, e1, e2, e3, e4, e5⟩ := where_blocks t
  funext y
  obtain ⟨r, o, rfl⟩ : ∃ (r : Fin 2048) (o : Fin 128), y = ix2 r o := ⟨y 0, y 1, eq_ix2 y⟩
  show k0_pay1 (iblk m c 0 t) (iblk m c 1 t) (ix2 r o)
    = flatByWt (longX m c) (wt m c) (((cfg0.win 2).blk t).view.emb (ix2 r o))
  refine (body_apply (iblk m c 0 t) (iblk m c 1 t) r o).trans ?_
  unfold flatByWt
  refine Finset.sum_congr rfl fun q _ => ?_
  have h0 : ((cfg0.win 0).blk t).view.emb (ix2 r q)
      = ix2 ((((cfg0.win 2).blk t).view.emb (ix2 r o)) 0) q := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 128 + 1 * q.val = q.val; omega
  have h1 : ((cfg0.win 1).blk t).view.emb (ix2 o q)
      = ix2 ((((cfg0.win 2).blk t).view.emb (ix2 r o)) 1) q := by
    funext a; apply Fin.ext
    match a with
    | ⟨0, _⟩ => show win0_1.index t (0 : Fin 2) * 128 + 1 * o.val = win0_2.index t (1 : Fin 2) * 128 + 1 * o.val; omega
    | ⟨1, _⟩ => show win0_1.index t (1 : Fin 2) * 128 + 1 * q.val = q.val; omega
  refine congrArg₂ (· * ·) ?_ ?_
  · show longX m c (((cfg0.win 0).blk t).view.emb (ix2 r q)) = _
    exact congrArg (longX m c) h0
  · show wt m c (((cfg0.win 1).blk t).view.emb (ix2 o q)) = _
    exact congrArg (wt m c) h1

/-! ## The blocks tile the output -/

/-- An entry of the long output is in point `t`'s block when each coordinate is in the block's range. -/
theorem mem_blk (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- Row `r` of the long output is written by the point `r / 2048`. -/
theorem cover (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  refine ⟨⟨(i 0).val / 2048, by show (i 0).val / 2048 < grid0.N; rw [N_0]; omega⟩, flush0_2 _, ?_⟩
  rw [mem_blk]
  obtain ⟨-, -, -, -, e4, e5⟩ := where_blocks ⟨(i 0).val / 2048, by show (i 0).val / 2048 < grid0.N; rw [N_0]; omega⟩
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 128 ≤ (i 1).val ∧ (i 1).val < win0_2.index _ (1 : Fin 2) * 128 + 128
    rw [e5]; omega

/-- The long output after the region: the map applied to every row of the long matrix. -/
theorem long_out (c : Dev nD) :
    (dats m 0 c).arrAt 2 cfg0.N = flatByWt (longX m c) (wt m c) :=
  (dats m 0 c).arrAt_eq_of_cover 2 (flatByWt (longX m c) (wt m c)) (fun t _ => flushed_eq m c t) cover

/-! ## The result -/

/-- The program's result is the long output cut back into a stack. -/
theorem tail_eq (c : Dev nD) :
    (Pipeline.afterTail₀ cfgs (dats m) 0 (V0 m) [hostOps1] c main_v2 : S16x2048x128.Idx → EReal)
      = shapeCast S16x2048x128 ((dats m 0 c).arrAt 2 cfg0.N) shapeCasts_S32768x128_S16x2048x128 := by
  unfold Pipeline.afterTail₀
  show StableHlo.after hostOps1 _ (Proc.devRef .tc main_v2) = _
  after_results
  rw [Pipeline.withArrays_arr spec0 launch0.win.arr_inj c _ _ 2]
  rfl

/-- The program's result is the map `v ↦ w · v` applied to every row of the stack. -/
theorem result_eq (c : Dev nD) :
    (Pipeline.afterTail₀ cfgs (dats m) 0 (V0 m) [hostOps1] c main_v2 : S16x2048x128.Idx → EReal)
      = rowsByWt (m ((c : Thread nD τ).loc main_arg0)) (m ((c : Thread nD τ).loc main_arg1)) := by
  rw [tail_eq, long_out, long_eq]
  have hw : wt m c = m ((c : Thread nD τ).loc main_arg1) := V_main_arg1 m c
  rw [hw]
  exact stack_flatByWt _ _ _ _

/-- Every run of the kernel's program ends with the result at `rowsByWt` of the arguments, and the arguments as they were. -/
theorem run : θ_run defs (onTc (τ := τ) (main (F := Ideal))) ⟨m, fun _ => 0, ρ⟩ fun r => ∀ c : Dev nD,
      r.2.mem ((c.tc : Thread nD τ).loc main_v2) = rowsByWt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelRows

end
-- ==== Proof.lean ====
/-
  The kernel against its reference: both apply the linear map `v ↦ w · v` to every row of a stack of 16 matrices
  of 2048 rows and 128 columns.

  The reference does it matrix by matrix and joins the sixteen results (Proof/RefRows.lean); the kernel lays the
  stack end to end, walks the 32768 rows in 16 blocks of 2048 and cuts the long result back into a stack
  (Proof/KernelRows.lean). Entry `(b, s, o)` of either result is the finite sum `∑ q, x (b, s, q) * w (o, q)` over the
  extended reals (Proof/RowMap.lean), the same products in the same order on both sides, so no law of arithmetic is
  needed and the finiteness of the inputs is not used.

  The three frame claims are the generated frames (the reference's is its generated run with the result dropped);
  the idealisation rewrote nothing, so the kernel's idealised program is its own text read over the extended reals.
-/
import proofs.«117499_g16398185136913_cont_week2b_1412_2_alg».proof.Defs
import proofs.«117499_g16398185136913_cont_week2b_1412_2_alg».proof.Proof.Gen.Kernel
import proofs.«117499_g16398185136913_cont_week2b_1412_2_alg».proof.Proof.Gen.Kernel.Skeleton
import proofs.«117499_g16398185136913_cont_week2b_1412_2_alg».proof.Proof.Gen.Kernel.Launch
import proofs.«117499_g16398185136913_cont_week2b_1412_2_alg».proof.Proof.Gen.Kernel.Points
import proofs.«117499_g16398185136913_cont_week2b_1412_2_alg».proof.Proof.Gen.Kernel.Frame
import proofs.«117499_g16398185136913_cont_week2b_1412_2_alg».proof.Proof.Gen.KernelIdeal
import proofs.«117499_g16398185136913_cont_week2b_1412_2_alg».proof.Proof.Gen.KernelIdeal.Skeleton
import proofs.«117499_g16398185136913_cont_week2b_1412_2_alg».proof.Proof.Gen.KernelIdeal.Launch
import proofs.«117499_g16398185136913_cont_week2b_1412_2_alg».proof.Proof.Gen.KernelIdeal.Points
import proofs.«117499_g16398185136913_cont_week2b_1412_2_alg».proof.Proof.Gen.KernelIdeal.Frame
import proofs.«117499_g16398185136913_cont_week2b_1412_2_alg».proof.Proof.Gen.ReferenceIdeal
import proofs.«117499_g16398185136913_cont_week2b_1412_2_alg».proof.Proof.Gen.Pre_finite_inputs
import proofs.«117499_g16398185136913_cont_week2b_1412_2_alg».proof.Proof.Gen.ReferenceIdeal.Run
import proofs.«117499_g16398185136913_cont_week2b_1412_2_alg».proof.Proof.Gen.ReferenceIdeal.Read
import proofs.«117499_g16398185136913_cont_week2b_1412_2_alg».proof.Proof.RowMap
import proofs.«117499_g16398185136913_cont_week2b_1412_2_alg».proof.Proof.RefRows
import proofs.«117499_g16398185136913_cont_week2b_1412_2_alg».proof.Proof.KernelRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with `RowMap.rowsByWt` of the arguments they agree on. -/
theorem algebraic : Cert.algebraic_KernelIdeal_ReferenceIdeal := by
  intro m ρ m' ρ' _ hagree
  refine ⟨fun c => Cert.RowMap.rowsByWt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.RefRows.ref_rows, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
